-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x2048x128 : Shape := ⟨4, ![64, 8, 2048, 128]⟩
abbrev S64x2 : Shape := ⟨2, ![64, 2]⟩
abbrev S_ : Shape := ⟨0, ![]⟩

class Facts : Prop where
  bcast_S_S64x8x2048x128 : S_.BroadcastsInDim S64x8x2048x128 (![] : Fin 0 → Fin S64x8x2048x128.rank)
  reducesTo_S64x8x2048x128_S_d0_1_2_3 : S64x8x2048x128.ReducesTo [0, 1, 2, 3] S_
  h_S_ : 0 < S_.numel

variable [Facts]

def fn {F : FTy → Type} [FloatOps F] (main_arg0 : FVec F S64x8x2048x128 .f32) (main_arg1 : IVec S64x2 32) (main_arg2 : IVec S64x2 32) : IVec S_ 1 :=
  let main_v0 : FVec F S64x8x2048x128 .f32 := Host.absf main_arg0
  let main_cst : FVec F S_ .f32 := constant S_ .f32 0x7F800000#32
  let main_v1 : FVec F S64x8x2048x128 .f32 := broadcastInDim S64x8x2048x128 ![] bcast_S_S64x8x2048x128 main_cst
  let main_v2 : IVec S64x8x2048x128 1 := cmpf .olt main_v0 main_v1
  let main_c : IVec S_ 1 := constantI S_ 1 1#1
  let main_v3 : IVec S_ 1 := (fun x v => Host.reduce IntOp.andi x v reducesTo_S64x8x2048x128_S_d0_1_2_3 h_S_) main_v2 main_c
  main_v3
-- ==== Kernel.lean ====
abbrev S64x8x2048x128 : Shape := ⟨4, ![64, 8, 2048, 128]⟩
abbrev S64x2 : Shape := ⟨2, ![64, 2]⟩
abbrev S1x8x1024x128 : Shape := ⟨4, ![1, 8, 1024, 128]⟩
abbrev S1024x1 : Shape := ⟨2, ![1024, 1]⟩
abbrev S1x1 : Shape := ⟨2, ![1, 1]⟩
abbrev S1x1x1024x128 : Shape := ⟨4, ![1, 1, 1024, 128]⟩
abbrev S1024x128 : Shape := ⟨2, ![1024, 128]⟩

abbrev nBuf : Space → Nat
  | .hbm => 2
  | .vmem => 4
  | .smem => 2
  | _ => 0

abbrev bufTy : (tb : Table) → Fin (tcTables nBuf tb) → BufTy
  | .hbm, ⟨0, _⟩ => ⟨S64x8x2048x128, .f32⟩
  | .hbm, ⟨1, _⟩ => ⟨S64x8x2048x128, .f32⟩
  | .local _ .vmem, ⟨0, _⟩ => ⟨S1x8x1024x128, .f32⟩
  | .local _ .vmem, ⟨1, _⟩ => ⟨S1x8x1024x128, .f32⟩
  | .local _ .vmem, ⟨2, _⟩ => ⟨S1x8x1024x128, .f32⟩
  | .local _ .vmem, ⟨3, _⟩ => ⟨S1x8x1024x128, .f32⟩
  | .local _ .smem, ⟨0, _⟩ => ⟨S64x2, .i32⟩
  | .local _ .smem, ⟨1, _⟩ => ⟨S64x2, .i32⟩
  | _, _ => ⟨S64x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v5 : Index := Scalar.indexCast arg0
  let c0 : Index := 0#32
  ![v5.toNat, 0]
def k0_off2 (i : grid0.Coords) : Fin 2 → Nat :=
  let arg0 : BitVec 32 := BitVec.ofNat 32 (i 0).val
  let v17 : Index := Scalar.indexCast arg0
  let c1 : Index := 1#32
  ![v17.toNat, 1]
@[reducible] def k0_t1_loop : Scf.Loop 32 :=
  let c0_i32 : BitVec 32 := 0#32
  let c8_i32 : BitVec 32 := 8#32
  let v31 : BitVec 32 := Scalar.addi c0_i32 c8_i32
  let c1_i32 : BitVec 32 := 1#32
  ⟨c0_i32, v31, c1_i32⟩
def k0_off3 (k0_t1 : Fin k0_t1_loop.trips) : Fin 4 → Nat :=
  let c0_4 : Index := 0#32
  let c0_i32 : BitVec 32 := 0#32
  let c1_i32 : BitVec 32 := 1#32
  let arg6 : BitVec 32 := Scf.iv c0_i32 c1_i32 k0_t1
  let v32 : Index := Scalar.indexCast arg6
  let c0_5 : Index := 0#32
  let c0_6 : Index := 0#32
  ![0, v32.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  iota_S1024x1_d0_w32 : S1024x1.Iotas .tc 32 [0]
  numel1_S1x1 : S1x1.numel = 1
  natLt_1_32 : 1 < 32
  h_S1x1x1024x128 : 0 < S1x1x1024x128.numel
  shapeCasts_S1x1x1024x128_S1024x128 : S1x1x1024x128.ShapeCasts S1024x128
  broadcasts_S1024x1_S1024x128 : S1024x1.Broadcasts S1024x128
  shapeCasts_S1024x128_S1x1x1024x128 : S1024x128.ShapeCasts S1x1x1024x128
  hrank0 : 0 < grid0.rank
  k0_off1_inb : ∀ i : grid0.Coords, ∀ a, (k0_off1 i) a + S1x1.size a ≤ S64x2.size a
  k0_off2_inb : ∀ i : grid0.Coords, ∀ a, (k0_off2 i) a + S1x1.size a ≤ S64x2.size a
  k0_t1_ok : k0_t1_loop.OK
  k0_off3_inb : ∀ k0_t1 : Fin k0_t1_loop.trips, ∀ a, (k0_off3 k0_t1) a + S1x1x1024x128.size a ≤ S1x8x1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1024x128.size a ≤ S64x8x2048x128.size a
  hwx0_0 : ∀ i : grid0.Coords, EltTy.bits .f32 = 32 ∨ (Rect.block (s := S64x8x2048x128) S1x8x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x1024x128.size a ≤ S64x8x2048x128.size a
  hwx0_1 : ∀ i : grid0.Coords, EltTy.bits .f32 = 32 ∨ (Rect.block (s := S64x8x2048x128) S1x8x1024x128.size (cc0_transform_1 i) (hinb0_1 i)).WholeWords (EltTy.packing .f32)

variable [Facts₀]

abbrev spec0_0 : Pipeline.WinSpec sig grid0.rank :=
  Pipeline.WinSpec.ofSpec (Memref.whole main_arg0) S1x8x1024x128.size reads0_0 false false 2 stage0_0 sem0_0 nbuf0_0 hstage0_0

abbrev spec0_1 : Pipeline.WinSpec sig grid0.rank :=
  Pipeline.WinSpec.ofSpec (Memref.whole main_v0) S1x8x1024x128.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x8x2048x128 : Shape := ⟨4, ![64, 8, 2048, 128]⟩
abbrev S64x2 : Shape := ⟨2, ![64, 2]⟩
abbrev S2048 : Shape := ⟨1, ![2048]⟩
abbrev S64x2x1 : Shape := ⟨3, ![64, 2, 1]⟩
abbrev S1x1x2048 : Shape := ⟨3, ![1, 1, 2048]⟩
abbrev S64x2x2048 : Shape := ⟨3, ![64, 2, 2048]⟩
abbrev S_ : Shape := ⟨0, ![]⟩
abbrev S64x2048 : Shape := ⟨2, ![64, 2048]⟩
abbrev S64x1x2048x1 : Shape := ⟨4, ![64, 1, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S64x8x2048x128, .f32⟩
  | .hbm, ⟨1, _⟩ => ⟨S64x2, .i32⟩
  | .hbm, ⟨2, _⟩ => ⟨S64x2, .i32⟩
  | .hbm, ⟨3, _⟩ => ⟨S2048, .i32⟩
  | .hbm, ⟨4, _⟩ => ⟨S64x2x1, .i32⟩
  | .hbm, ⟨5, _⟩ => ⟨S64x2, .i32⟩
  | .hbm, ⟨6, _⟩ => ⟨S64x2x1, .i32⟩
  | .hbm, ⟨7, _⟩ => ⟨S1x1x2048, .i32⟩
  | .hbm, ⟨8, _⟩ => ⟨S64x2x2048, .i32⟩
  | .hbm, ⟨9, _⟩ => ⟨S64x2x2048, .i32⟩
  | .hbm, ⟨10, _⟩ => ⟨S64x2x2048, .i1⟩
  | .hbm, ⟨11, _⟩ => ⟨S1x1x2048, .i32⟩
  | .hbm, ⟨12, _⟩ => ⟨S64x2x2048, .i32⟩
  | .hbm, ⟨13, _⟩ => ⟨S64x2x2048, .i32⟩
  | .hbm, ⟨14, _⟩ => ⟨S64x2x2048, .i1⟩
  | .hbm, ⟨15, _⟩ => ⟨S64x2x2048, .i1⟩
  | .hbm, ⟨16, _⟩ => ⟨S_, .i1⟩
  | .hbm, ⟨17, _⟩ => ⟨S64x2048, .i1⟩
  | .hbm, ⟨18, _⟩ => ⟨S64x2048, .i1⟩
  | .hbm, ⟨19, _⟩ => ⟨S64x1x2048x1, .i1⟩
  | .hbm, ⟨20, _⟩ => ⟨S64x1x2048x1, .f32⟩
  | .hbm, ⟨21, _⟩ => ⟨S64x8x2048x128, .f32⟩
  | .hbm, ⟨22, _⟩ => ⟨S64x8x2048x128, .f32⟩
  | _, _ => ⟨S64x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  bcast_S64x2_S64x2x1_0_1 : S64x2.BroadcastsInDim S64x2x1 (![0, 1] : Fin 2 → Fin S64x2x1.rank)
  bcast_S2048_S1x1x2048_2 : S2048.BroadcastsInDim S1x1x2048 (![2] : Fin 1 → Fin S1x1x2048.rank)
  bcast_S1x1x2048_S64x2x2048_0_1_2 : S1x1x2048.BroadcastsInDim S64x2x2048 (![0, 1, 2] : Fin 3 → Fin S64x2x2048.rank)
  bcast_S64x2x1_S64x2x2048_0_1_2 : S64x2x1.BroadcastsInDim S64x2x2048 (![0, 1, 2] : Fin 3 → Fin S64x2x2048.rank)
  reducesTo_S64x2x2048_S64x2048_d1 : S64x2x2048.ReducesTo [1] S64x2048
  h_S_ : 0 < S_.numel
  bcast_S64x2048_S64x1x2048x1_0_2 : S64x2048.BroadcastsInDim S64x1x2048x1 (![0, 2] : Fin 2 → Fin S64x1x2048x1.rank)
  bcast_S64x1x2048x1_S64x8x2048x128_0_1_2_3 : S64x1x2048x1.BroadcastsInDim S64x8x2048x128 (![0, 1, 2, 3] : Fin 4 → Fin S64x8x2048x128.rank)

variable [Facts₀]

class Facts : Prop extends Facts₀ where

variable [Facts]
-- ==== Proof.Stripes.lean ====
/-
  Stripe masking along the time axis, as plain functions of 32-bit words.

  A stripe is given by a begin word `lo` and a width word `d`; time step `t` (a word) lies in it when
  `lo ≤ t < lo + d`, both comparisons SIGNED and the sum wrapping at 32 bits. A time step is KEPT when it lies in
  neither of a sample's two stripes; the kept value is the keep bit read as a number, 0 or 1. The masked array
  multiplies every entry `x[b, c, t, l]` by the kept value of `(b, t)`.

  Two spellings of the keep bit meet here. One folds an OR over the stripes and complements it; the other starts
  from the all-ones bit and ANDs in the complement (an XOR with 1) of each stripe in turn: on one-bit words these are
  De Morgan's law. And a one-bit word widened by zeros to 32 bits and read SIGNED is the same number as the bit read
  UNSIGNED.
-/
import Idealize.ShloMosaic.PureOps.Ideal
import Idealize.ShloMosaic.PureOps.Reduce
import Idealize.ShloMosaic.Lib.ValueIdx

noncomputable section

namespace Cert.Stripes

open Idealize.ShloMosaic Idealize.ShloMosaic.ValueIdx

/-- Whether time step `t` lies in the stripe beginning at `lo` of width `d`: `lo ≤ t` and `t < lo + d`, signed. -/
def inStripe (lo d t : BitVec 32) : BitVec 1 :=
  IntOp.andi (IntOp.cmpi .sge t lo) (IntOp.cmpi .slt t (IntOp.addi lo d))

/-- The keep bit of time step `t` against two stripes: in neither. -/
def keepBit (lo0 d0 lo1 d1 t : BitVec 32) : BitVec 1 :=
  ~~~(inStripe lo0 d0 t ||| inStripe lo1 d1 t)

/-- The keep bit as a number: 0 or 1. -/
def keepVal (lo0 d0 lo1 d1 t : BitVec 32) : EReal :=
  (((keepBit lo0 d0 lo1 d1 t).toNat : ℝ) : EReal)

/-- De Morgan on one-bit words: all-ones, then AND with each stripe bit XOR 1, is the complement of their OR. -/
theorem and_xor_eq_not_or (a b : BitVec 1) :
    IntOp.andi (IntOp.andi 1#1 (IntOp.xori a 1#1)) (IntOp.xori b 1#1) = ~~~(a ||| b) := by
  revert a b; decide

/-- A one-bit word zero-extended to 32 bits and read signed is the bit read unsigned. -/
theorem toInt_setWidth_bit (w : BitVec 1) : ((w.setWidth 32).toInt : ℝ) = (w.toNat : ℝ) := by
  have h : ∀ w : BitVec 1, (w.setWidth 32).toInt = (w.toNat : ℤ) := by decide
  rw [h w]; simp

/-- An OR-fold from the zero bit over a two-element axis is the OR of the two entries. -/
theorem fold_ori_two (g : Fin 2 → BitVec 1) :
    (Finset.univ : Finset (Fin 2)).fold IntOp.ori 0#1 g = g 0 ||| g 1 := by
  rw [show (Finset.univ : Finset (Fin 2)) = insert (0 : Fin 2) {(1 : Fin 2)} from by decide,
    Finset.fold_insert (by decide), Finset.fold_singleton]
  show g 0 ||| (g 1 ||| 0#1) = g 0 ||| g 1
  rw [BitVec.or_zero]

/-- Row `r` of time tile `a` (tiles of 1024 rows) is time step `a · 1024 + r`, as words. -/
theorem tile_time (a r : ℕ) :
    IntOp.addi (IntOp.muli (BitVec.ofNat 32 a) 1024#32) (BitVec.ofNat 32 r) = BitVec.ofNat 32 (a * 1024 + r) := by
  show BitVec.ofNat 32 a * 1024#32 + BitVec.ofNat 32 r = _
  rw [BitVec.ofNat_add, BitVec.ofNat_mul]

/-- The masked array: entry `(b, c, t, l)` of `x` times the kept value of time step `t` against sample `b`'s two
    stripes, begins from `bg` and widths from `ds`. -/
def dropped (x : (⟨4, ![64, 8, 2048, 128]⟩ : Shape).Idx → EReal) (ds bg : (⟨2, ![64, 2]⟩ : Shape).Idx → BitVec 32) :
    (⟨4, ![64, 8, 2048, 128]⟩ : Shape).Idx → EReal :=
  fun j => x j * keepVal (bg (ix2 (n0 := 64) (n1 := 2) (j 0) 0)) (ds (ix2 (n0 := 64) (n1 := 2) (j 0) 0))
    (bg (ix2 (n0 := 64) (n1 := 2) (j 0) 1)) (ds (ix2 (n0 := 64) (n1 := 2) (j 0) 1)) (BitVec.ofNat 32 (j 2).val)

end Cert.Stripes

end
-- ==== Proof.KernelBlock.lean ====
/-
  What the kernel body leaves in its output block at one grid point.

  At grid point `(b, a)` — sample `b`, time tile `a` of 1024 rows — the body reads four words off the two tables
  (the begins and widths of sample `b`'s two stripes), builds the keep column for rows `r = 0 … 1023` at time steps
  `a · 1024 + r`, and then, channel by channel in a counted loop of eight trips, stores `x[c] · keep` into channel `c`
  of the output block. Trip `k` writes ONE piece: the rectangle of channel `k`, its payload the loaded channel times
  the keep column broadcast over the lanes. Every piece's payload is therefore the one function
  `y ↦ x y · keepVal(time step of y)` of the block index read at the piece's own indices; the eight pieces cover the
  block, so the block ends holding that function.
-/
import proofs.«413042_j154618823374_3_alg».proof.Proof.Gen.KernelIdeal.Frame
import proofs.«413042_j154618823374_3_alg».proof.Proof.Stripes
import Idealize.ShloMosaic.Lib.Pipeline.Value
import Idealize.ShloMosaic.Lib.ValueLayout
import Idealize.ShloMosaic.Lib.ValueIdx

set_option maxRecDepth 16384

noncomputable section

namespace Cert.KernelIdeal.BlockValue

open Cert.KernelIdeal Cert.KernelIdeal.Gen
open Idealize.ShloMosaic Idealize.ShloMosaic.TcCoe Idealize.SL.Sem Idealize.ShloMosaic.ValueIdx Cert.Stripes

/-- The block the body leaves at grid point `i`, from the input block `x0` and the four stripe words: entry `y` of the
    input times the kept value of time step `i₁ · 1024 + y₂`. -/
def blockVal (i : grid0.Coords) (x0 : Vec Ideal S1x8x1024x128 .f32) (lo0 d0 lo1 d1 : BitVec 32) :
    Vec Ideal S1x8x1024x128 .f32 :=
  fun y => x0 y * keepVal lo0 d0 lo1 d1 (BitVec.ofNat 32 ((i 1).val * 1024 + (y 2).val))

/-- The time-step column of the tile: row `r` is time step `i₁ · 1024 + r`. -/
theorem time_col (i : grid0.Coords) (r : Fin 1024) :
    (addi (broadcast S1024x1 (Scalar.muli (BitVec.ofNat 32 (i 1).val) 1024#32))
        (iota .tc S1024x1 32 [0] iota_S1024x1_d0_w32)) (ix2 (n0 := 1024) (n1 := 1) r 0)
      = BitVec.ofNat 32 ((i 1).val * 1024 + r.val) := by
  show IntOp.addi (IntOp.muli (BitVec.ofNat 32 (i 1).val) 1024#32)
    (iota .tc S1024x1 32 [0] iota_S1024x1_d0_w32 (ix2 (n0 := 1024) (n1 := 1) r 0)) = _
  rw [iota_single_apply]
  exact tile_time _ _

/-- ONE STORE'S PAYLOAD at row `r`, lane `l` of its one channel: the loaded entry times the kept value of the row's
    time step. -/
theorem pay_apply (i : grid0.Coords) (v6 v8 v18 v20 : BitVec 32) (v33 : Vec Ideal S1x1x1024x128 .f32)
    (r : Fin 1024) (l : Fin 128) :
    k0_pay1 (F := Ideal) i v6 v8 v18 v20 v33 (ix4 (n0 := 1) (n1 := 1) (n2 := 1024) (n3 := 128) 0 0 r l)
      = v33 (ix4 (n0 := 1) (n1 := 1) (n2 := 1024) (n3 := 128) 0 0 r l)
        * keepVal v6 v8 v18 v20 (BitVec.ofNat 32 ((i 1).val * 1024 + r.val)) := by
  unfold k0_pay1
  dsimp only
  refine (shapeCast_apply _ _ (ix4 (n0 := 1) (n1 := 1) (n2 := 1024) (n3 := 128) 0 0 r l)
    (ix2 (n0 := 1024) (n1 := 128) r l) ?_).trans ?_
  · rw [Shape.rowMajor_val_two, Shape.rowMajor_val_four]
    show r.val * 128 + l.val = ((0 * 1 + 0) * 1024 + r.val) * 128 + l.val
    omega
  · refine congrArg₂ (· * ·) ?_ ?_
    · show v33 (Shape.reshapeEquiv _ (ix2 (n0 := 1024) (n1 := 128) r l)) = _
      rw [reshapeEquiv_ix2_11ab]
      rfl
    · refine (broadcastTo_apply _ _ (ix2 (n0 := 1024) (n1 := 128) r l) (ix2 (n0 := 1024) (n1 := 1) r 0) ?_).trans ?_
      · intro a
        match a with
        | ⟨0, _⟩ => rfl
        | ⟨1, _⟩ => rfl
      · have hT := time_col i r
        generalize (addi (broadcast S1024x1 (Scalar.muli (BitVec.ofNat 32 (i 1).val) 1024#32))
          (iota .tc S1024x1 32 [0] iota_S1024x1_d0_w32)) = T at hT ⊢
        show ((((IntOp.andi (IntOp.andi 1#1 (IntOp.xori (inStripe v6 v8 (T (ix2 (n0 := 1024) (n1 := 1) r 0))) 1#1))
          (IntOp.xori (inStripe v18 v20 (T (ix2 (n0 := 1024) (n1 := 1) r 0))) 1#1)).setWidth 32).toInt : ℝ) : EReal) = _
        rw [hT, and_xor_eq_not_or, toInt_setWidth_bit]
        rfl

/-- A trip's one piece: its payload, at each of its own indices, is `blockVal` at the block index the piece puts it. -/
theorem trip_pieces (c : Dev nD) (i : grid0.Coords) (arg4 : Memref sig .tc .vmem S1x8x1024x128 .f32) (harg4 : arg4.IsWhole)
    (arg5 : Memref sig .tc .vmem S1x8x1024x128 .f32) (harg5 : arg5.IsWhole) (v6 v8 v18 v20 : BitVec 32)
    (x0 : Vec Ideal S1x8x1024x128 .f32) (k : Fin k0_t1_loop.trips) :
    ∀ p ∈ tripL_k0_t1 (F := Ideal) Variants.none c none i tbM0_0 htbM0_0 tbM0_1 htbM0_1 arg4 harg4 arg5 harg5 v6 v8 v18 v20
        (harg4.unread x0) k,
      ∀ x' : p.1.shape.Idx, p.2 x' = blockVal i x0 v6 v8 v18 v20 (p.1.emb x') := by
  unfold tripL_k0_t1 trip_k0_t1
  dsimp only
  intro p hp x'
  rw [List.mem_singleton] at hp
  subst hp
  dsimp only at x' ⊢
  obtain ⟨a0, a1, r, l, rfl⟩ : ∃ (a0 : Fin 1) (a1 : Fin 1) (r : Fin 1024) (l : Fin 128), x' = ix4 a0 a1 r l :=
    ⟨x' 0, x' 1, x' 2, x' 3, eq_ix4 x'⟩
  obtain rfl : a0 = 0 := Subsingleton.elim _ _
  obtain rfl : a1 = 0 := Subsingleton.elim _ _
  refine (pay_apply i v6 v8 v18 v20 _ r l).trans ?_
  rw [View.readAt_eq_ld, Memref.IsWhole.read_unread]
  unfold blockVal
  have e : ((Rect.unit (s := S1x8x1024x128) (k0_off3 k) ![1, 1, 1024, 128] (k0_off3_inb k)).emb
      (ix4 (n0 := 1) (n1 := 1) (n2 := 1024) (n3 := 128) 0 0 r l) 2).val = r.val := by
    show (k0_off3 k) 2 + 1 * r.val = r.val
    show 0 + 1 * r.val = r.val
    omega
  rw [e]
  rfl

/-- The pieces of the trips before `n`: each is `blockVal` at its own indices. -/
theorem pb_pieces (c : Dev nD) (i : grid0.Coords) (arg4 : Memref sig .tc .vmem S1x8x1024x128 .f32) (harg4 : arg4.IsWhole)
    (arg5 : Memref sig .tc .vmem S1x8x1024x128 .f32) (harg5 : arg5.IsWhole) (v6 v8 v18 v20 : BitVec 32)
    (x0 : Vec Ideal S1x8x1024x128 .f32) :
    ∀ n, n ≤ k0_t1_loop.trips →
      ∀ p ∈ pb_k0_t1 (F := Ideal) Variants.none c none i tbM0_0 htbM0_0 tbM0_1 htbM0_1 arg4 harg4 arg5 harg5 v6 v8 v18 v20
          (harg4.unread x0) n,
        ∀ x' : p.1.shape.Idx, p.2 x' = blockVal i x0 v6 v8 v18 v20 (p.1.emb x')
  | 0, _ => by
    intro p hp
    rw [pb_k0_t1.eq_1] at hp
    exact absurd hp List.not_mem_nil
  | n + 1, hn => by
    intro p hp x'
    have hs := pb_k0_t1_succ (F := Ideal) Variants.none c none i tbM0_0 htbM0_0 tbM0_1 htbM0_1 arg4 harg4 arg5 harg5
      v6 v8 v18 v20 (harg4.unread x0) ⟨n, hn⟩
    rw [show ((⟨n, hn⟩ : Fin k0_t1_loop.trips).val + 1) = n + 1 from rfl] at hs
    rw [hs] at hp
    rcases List.mem_append.mp hp with h | h
    · exact trip_pieces c i arg4 harg4 arg5 harg5 v6 v8 v18 v20 x0 ⟨n, hn⟩ p h x'
    · exact pb_pieces c i arg4 harg4 arg5 harg5 v6 v8 v18 v20 x0 n (Nat.le_of_succ_le hn) p h x'

/-- THE OUTPUT BLOCK the body leaves at grid point `i`: `blockVal` of the input block and the four words the body
    read off the tables. -/
theorem out_eq (c : Dev nD) (i : grid0.Coords) (arg4 : Memref sig .tc .vmem S1x8x1024x128 .f32) (harg4 : arg4.IsWhole)
    (arg5 : Memref sig .tc .vmem S1x8x1024x128 .f32) (harg5 : arg5.IsWhole) (x0 : Vec Ideal S1x8x1024x128 .f32)
    (xt0 : TbBuf0 (F := Ideal) c tbM0_0) (xt1 : TbBuf0 (F := Ideal) c tbM0_1) :
    out0_A_1 (F := Ideal) c i arg4 harg4 arg5 harg5 x0 xt0 xt1
      = blockVal i x0 (kernelRun0_A.sl.r c i xt1) (kernelRun0_A.sl.r_1 c i xt0)
          (kernelRun0_A.sl.r_2 c i xt1) (kernelRun0_A.sl.r_3 c i xt0) := by
  unfold out0_A_1
  rw [View.read_writes_eq_canon _ _ _ (cover0_A_1 c i arg4 harg4 arg5 harg5 x0 xt0 xt1)]
  funext y
  refine View.canon_apply_of_pieces _ _ ?_ y (cover0_A_1 c i arg4 harg4 arg5 harg5 x0 xt0 xt1 y)
  unfold kernelRun0_A
  dsimp only
  exact pb_pieces c i arg4 harg4 arg5 harg5 _ _ _ _ x0 _ (Nat.le_refl _)

end Cert.KernelIdeal.BlockValue

end
-- ==== Proof.KernelValue.lean ====
/-
  The array the kernel leaves: the masked array of `Stripes.lean`.

  Grid point `(b, a)` handles sample `b` and time tile `a`: its blocks, of the input and of the output alike, are the
  [1, 8, 1024, 128] slabs at array indices `(b, c, a · 1024 + r, l)`. The four words the body reads off the tables are
  sample `b`'s two begins and two widths. So what the point writes back is the masked array read through its block; the
  128 blocks tile the array (time step `t` of sample `b` lies in tile `t / 1024`), and the array ends as the masked array.
-/
import proofs.«413042_j154618823374_3_alg».proof.Proof.KernelBlock

set_option maxRecDepth 16384

noncomputable section

namespace Cert.KernelIdeal.ArrayValue

open Cert.KernelIdeal Cert.KernelIdeal.Gen Cert.KernelIdeal.BlockValue
open Idealize.ShloMosaic Idealize.ShloMosaic.TcCoe Idealize.SL.Sem Idealize.ShloMosaic.ValueIdx Cert.Stripes
open Idealize.ShloMosaic.Pipeline (Dat)

variable (m : (ℓ : Loc nD τ sig) → Buf (Elt Ideal) ℓ) (ρ : Dev nD → PrngReg)

/-- The input array, the widths table and the begins table as launched. -/
abbrev xs (c : Dev nD) : S64x8x2048x128.Idx → EReal := m ((c : Thread nD τ).loc main_arg0)
abbrev widths (c : Dev nD) : S64x2.Idx → BitVec 32 := m ((c : Thread nD τ).loc main_arg1)
abbrev begins (c : Dev nD) : S64x2.Idx → BitVec 32 := m ((c : Thread nD τ).loc main_arg2)

/-- THE VALUE: the masked array of the launch contents. -/
abbrev val (c : Dev nD) : Buf (Elt Ideal) ((c : Thread nD τ).loc main_v0) := dropped (xs m c) (widths m c) (begins m c)

/-- The sample a grid point handles. -/
def sample (i : grid0.Coords) : Fin 64 := ⟨(i 0).val, (i 0).isLt⟩

/-- The array index of block index `y` at grid point `i`: `(i₀, y₁, i₁ · 1024 + y₂, y₃)`. -/
def arrIdx (i : grid0.Coords) (y : S1x8x1024x128.Idx) : S64x8x2048x128.Idx :=
  ix4 (sample i) (⟨(y 1).val, (y 1).isLt⟩ : Fin 8)
    (⟨(i 1).val * 1024 + (y 2).val, by
      have h1 : (i 1).val < 2 := (i 1).isLt
      have h2 : (y 2).val < 1024 := (y 2).isLt
      omega⟩ : Fin 2048)
    (⟨(y 3).val, (y 3).isLt⟩ : Fin 128)

/-- A grid coordinate as a 32-bit word and back is itself. -/
theorem toNat_coord0 (i : grid0.Coords) : (BitVec.ofNat 32 (i 0).val).toNat = (i 0).val := by
  have h : (i 0).val < 64 := (i 0).isLt
  rw [BitVec.toNat_ofNat]; exact Nat.mod_eq_of_lt (by omega)
theorem toNat_coord1 (i : grid0.Coords) : (BitVec.ofNat 32 (i 1).val).toNat = (i 1).val := by
  have h : (i 1).val < 2 := (i 1).isLt
  rw [BitVec.toNat_ofNat]; exact Nat.mod_eq_of_lt (by omega)

/-! ## The words the body reads off the tables -/

/-- The begins table read at row `i₀`, column `s`, through the whole-table memref. -/
theorem begins_word (c : Dev nD) (i : grid0.Coords) (s : Fin 2) (off : Fin 2 → Nat)
    (hoff : off 0 = (BitVec.ofNat 32 (i 0).val).toNat ∧ off 1 = s.val)
    (inb : ∀ a, off a + S1x1.size a ≤ S64x2.size a) (h1 : 0 < S1x1.numel) :
    tbM0_1.view.readAt (Elt Ideal) (Rect.unit (s := S64x2) off S1x1.size inb).toLoadRect (tbl m 1) (Shape.Idx.first h1)
      = begins m c (ix2 (n0 := 64) (n1 := 2) (sample i) s) := by
  obtain rfl : c = 0 := Subsingleton.elim _ _
  show m _ _ = m _ _
  congr 1
  funext a
  apply Fin.ext
  match a with
  | ⟨0, _⟩ =>
    show off 0 + 1 * 0 = (i 0).val
    rw [hoff.1, toNat_coord0]; omega
  | ⟨1, _⟩ =>
    show off 1 + 1 * 0 = s.val
    rw [hoff.2]; omega

/-- The widths table read at row `i₀`, column `s`, through the whole-table memref. -/
theorem widths_word (c : Dev nD) (i : grid0.Coords) (s : Fin 2) (off : Fin 2 → Nat)
    (hoff : off 0 = (BitVec.ofNat 32 (i 0).val).toNat ∧ off 1 = s.val)
    (inb : ∀ a, off a + S1x1.size a ≤ S64x2.size a) (h1 : 0 < S1x1.numel) :
    tbM0_0.view.readAt (Elt Ideal) (Rect.unit (s := S64x2) off S1x1.size inb).toLoadRect (tbl m 0) (Shape.Idx.first h1)
      = widths m c (ix2 (n0 := 64) (n1 := 2) (sample i) s) := by
  obtain rfl : c = 0 := Subsingleton.elim _ _
  show m _ _ = m _ _
  congr 1
  funext a
  apply Fin.ext
  match a with
  | ⟨0, _⟩ =>
    show off 0 + 1 * 0 = (i 0).val
    rw [hoff.1, toNat_coord0]; omega
  | ⟨1, _⟩ =>
    show off 1 + 1 * 0 = s.val
    rw [hoff.2]; omega

theorem word_lo0 (c : Dev nD) (i : grid0.Coords) :
    kernelRun0_A.sl.r c i (tbl m 1) = begins m c (ix2 (n0 := 64) (n1 := 2) (sample i) 0) := by
  unfold kernelRun0_A.sl.r
  exact begins_word m c i 0 (k0_off1 i) ⟨rfl, rfl⟩ _ _
theorem word_d0 (c : Dev nD) (i : grid0.Coords) :
    kernelRun0_A.sl.r_1 c i (tbl m 0) = widths m c (ix2 (n0 := 64) (n1 := 2) (sample i) 0) := by
  unfold kernelRun0_A.sl.r_1
  exact widths_word m c i 0 (k0_off1 i) ⟨rfl, rfl⟩ _ _
theorem word_lo1 (c : Dev nD) (i : grid0.Coords) :
    kernelRun0_A.sl.r_2 c i (tbl m 1) = begins m c (ix2 (n0 := 64) (n1 := 2) (sample i) 1) := by
  unfold kernelRun0_A.sl.r_2
  exact begins_word m c i 1 (k0_off2 i) ⟨rfl, rfl⟩ _ _
theorem word_d1 (c : Dev nD) (i : grid0.Coords) :
    kernelRun0_A.sl.r_3 c i (tbl m 0) = widths m c (ix2 (n0 := 64) (n1 := 2) (sample i) 1) := by
  unfold kernelRun0_A.sl.r_3
  exact widths_word m c i 1 (k0_off2 i) ⟨rfl, rfl⟩ _ _

/-! ## The blocks -/

/-- The input block at a point, at its literal type. -/
abbrev xblk (hO : Ok m) (c : Dev nD) (t : Fin (cfgM m hO).N) : Vec Ideal S1x8x1024x128 .f32 := iblk m hO c 0 t

/-- A block index has leading coordinate 0. -/
theorem y0 (y : S1x8x1024x128.Idx) : (y 0).val = 0 := by
  have h : (y 0).val < 1 := (y 0).isLt
  omega

/-- The input block at point `t` reads the input array at the point's array indices. -/
theorem xblk_apply (hO : Ok m) (c : Dev nD) (t : Fin (cfgM m hO).N) (y : S1x8x1024x128.Idx) :
    xblk m hO c t y = xs m c (arrIdx (grid0.coords t) y) := by
  show m _ _ = m _ _
  congr 1
  funext a
  apply Fin.ext
  match a with
  | ⟨0, _⟩ =>
    show (BitVec.ofNat 32 (grid0.coords t 0).val).toNat * 1 + 1 * (y 0).val = (grid0.coords t 0).val
    rw [toNat_coord0, y0]; omega
  | ⟨1, _⟩ =>
    show (0#32).toNat * 8 + 1 * (y 1).val = (y 1).val
    show 0 * 8 + 1 * (y 1).val = (y 1).val
    omega
  | ⟨2, _⟩ =>
    show (BitVec.ofNat 32 (grid0.coords t 1).val).toNat * 1024 + 1 * (y 2).val = (grid0.coords t 1).val * 1024 + (y 2).val
    rw [toNat_coord1]; omega
  | ⟨3, _⟩ =>
    show (0#32).toNat * 128 + 1 * (y 3).val = (y 3).val
    show 0 * 128 + 1 * (y 3).val = (y 3).val
    omega

/-- An array read back through the output block at point `t` is the array at the point's array indices. -/
theorem oblk_read (hO : Ok m) (c : Dev nD) (t : Fin (cfgM m hO).N) (f : Buf (Elt Ideal) ((c : Thread nD τ).loc main_v0))
    (y : S1x8x1024x128.Idx) :
    ((((cfgM m hO).win 1).blk t).view.read (Elt Ideal) f : S1x8x1024x128.Idx → EReal) y = f (arrIdx (grid0.coords t) y) := by
  show f _ = f _
  congr 1
  funext a
  apply Fin.ext
  match a with
  | ⟨0, _⟩ =>
    show (BitVec.ofNat 32 (grid0.coords t 0).val).toNat * 1 + 1 * (y 0).val = (grid0.coords t 0).val
    rw [toNat_coord0, y0]; omega
  | ⟨1, _⟩ =>
    show (0#32).toNat * 8 + 1 * (y 1).val = (y 1).val
    show 0 * 8 + 1 * (y 1).val = (y 1).val
    omega
  | ⟨2, _⟩ =>
    show (BitVec.ofNat 32 (grid0.coords t 1).val).toNat * 1024 + 1 * (y 2).val = (grid0.coords t 1).val * 1024 + (y 2).val
    rw [toNat_coord1]; omega
  | ⟨3, _⟩ =>
    show (0#32).toNat * 128 + 1 * (y 3).val = (y 3).val
    show 0 * 128 + 1 * (y 3).val = (y 3).val
    omega

/-- What the body leaves at point `t`: `blockVal` of the input block and sample `t₀`'s stripe words. -/
theorem outs_eq (hO : Ok m) (c : Dev nD) (t : Fin (cfgM m hO).N) :
    outsAt0 m hO c t = blockVal (grid0.coords t) (xblk m hO c t)
      (begins m c (ix2 (n0 := 64) (n1 := 2) (sample (grid0.coords t)) 0))
      (widths m c (ix2 (n0 := 64) (n1 := 2) (sample (grid0.coords t)) 0))
      (begins m c (ix2 (n0 := 64) (n1 := 2) (sample (grid0.coords t)) 1))
      (widths m c (ix2 (n0 := 64) (n1 := 2) (sample (grid0.coords t)) 1)) := by
  rw [← word_lo0 m c, ← word_d0 m c, ← word_lo1 m c, ← word_d1 m c]
  exact out_eq c (grid0.coords t) _ _ _ _ (xblk m hO c t) (tbl m 0) (tbl m 1)

/-- At every point the block written back is the masked array read through the point's block. -/
theorem flushed_eq (hO : Ok m) (c : Dev nD) (t : Fin (cfgM m hO).N) (_ : ((cfgM m hO).win 1).flush t = true) :
    (dats m hO 0 c).flushed 1 t = (((cfgM m hO).win 1).blk t).view.read (Elt Ideal) (val m c) := by
  show ((cfgM m hO).win 1).cut ((cfgM m hO).grid.coords t) ((dats m hO 0 c).after 1 t) = _
  rw [after0_1]
  funext j
  refine Eq.trans ?_ (oblk_read m hO c t (val m c) j).symm
  show outsAt0 m hO c t j = _
  rw [outs_eq]
  unfold blockVal
  rw [show xblk m hO c t j = xs m c (arrIdx (grid0.coords t) j) from xblk_apply m hO c t j]
  rfl

/-- The output block at grid point `i` lies inside the array. -/
theorem oblk_inb (i : grid0.Coords) :
    ∀ a, cc0_transform_1 i a * S1x8x1024x128.size a + S1x8x1024x128.size a ≤ S64x8x2048x128.size a := by
  intro a
  have e0 := toNat_coord0 i
  have e1 := toNat_coord1 i
  have b0 : (i 0).val < 64 := (i 0).isLt
  have b1 : (i 1).val < 2 := (i 1).isLt
  match a with
  | ⟨0, _⟩ => show (BitVec.ofNat 32 (i 0).val).toNat * 1 + 1 ≤ 64; omega
  | ⟨1, _⟩ => show 0 * 8 + 8 ≤ 8; omega
  | ⟨2, _⟩ => show (BitVec.ofNat 32 (i 1).val).toNat * 1024 + 1024 ≤ 2048; omega
  | ⟨3, _⟩ => show 0 * 128 + 128 ≤ 128; omega

/-- The rectangle of the array that grid point `i`'s output block is. -/
abbrev orect (i : grid0.Coords) : Rect S64x8x2048x128 :=
  Rect.unit (fun a => cc0_transform_1 i a * S1x8x1024x128.size a) S1x8x1024x128.size (oblk_inb i)

/-- An array index is in point `t`'s block iff each coordinate is in the block's range on its axis. -/
theorem mem_blk (hO : Ok m) (t : Fin (cfgM m hO).N) (i : S64x8x2048x128.Idx) :
    i ∈ (((cfgM m hO).win 1).blk t).view.set ↔
      ∀ a : Fin 4, cc0_transform_1 (grid0.coords t) a * S1x8x1024x128.size a ≤ (i a).val
        ∧ (i a).val < cc0_transform_1 (grid0.coords t) a * S1x8x1024x128.size a + S1x8x1024x128.size a := by
  show i ∈ ((View.whole main_v0).slice (orect (grid0.coords t))).set ↔ _
  rw [View.set_slice_whole, Rect.mem_set_unit]
  exact Iff.rfl

/-- Every (sample, time tile) pair is some grid point's block index. -/
theorem idx_onto : ∀ (q0 : Fin 64) (q2 : Fin 2), ∃ t : Fin grid0.N,
    cc0_transform_1 (grid0.coords t) = ![q0.val, 0, q2.val, 0] := by
  decide +kernel

/-- Every array index lies in some point's block: sample `i₀`, time tile `i₂ / 1024`. -/
theorem cover (hO : Ok m) (i : S64x8x2048x128.Idx) :
    ∃ t : Fin (cfgM m hO).N, ((cfgM m hO).win 1).flush t = true ∧ i ∈ (((cfgM m hO).win 1).blk t).view.set := by
  have h0 : (i 0).val < 64 := (i 0).isLt
  have h1 : (i 1).val < 8 := (i 1).isLt
  have h2 : (i 2).val < 2048 := (i 2).isLt
  have h3 : (i 3).val < 128 := (i 3).isLt
  obtain ⟨t, ht⟩ := idx_onto ⟨(i 0).val, h0⟩ ⟨(i 2).val / 1024, by omega⟩
  have q0 : cc0_transform_1 (grid0.coords t) (0 : Fin 4) = (i 0).val := congrFun ht 0
  have q1 : cc0_transform_1 (grid0.coords t) (1 : Fin 4) = 0 := congrFun ht 1
  have q2 : cc0_transform_1 (grid0.coords t) (2 : Fin 4) = (i 2).val / 1024 := congrFun ht 2
  have q3 : cc0_transform_1 (grid0.coords t) (3 : Fin 4) = 0 := congrFun ht 3
  refine ⟨t, flush0_1 (adm m hO) t, ?_⟩
  rw [mem_blk]
  intro a
  match a with
  | ⟨0, _⟩ =>
    show cc0_transform_1 (grid0.coords t) (0 : Fin 4) * 1 ≤ (i 0).val ∧ (i 0).val < cc0_transform_1 (grid0.coords t) (0 : Fin 4) * 1 + 1
    omega
  | ⟨1, _⟩ =>
    show cc0_transform_1 (grid0.coords t) (1 : Fin 4) * 8 ≤ (i 1).val ∧ (i 1).val < cc0_transform_1 (grid0.coords t) (1 : Fin 4) * 8 + 8
    omega
  | ⟨2, _⟩ =>
    show cc0_transform_1 (grid0.coords t) (2 : Fin 4) * 1024 ≤ (i 2).val ∧ (i 2).val < cc0_transform_1 (grid0.coords t) (2 : Fin 4) * 1024 + 1024
    omega
  | ⟨3, _⟩ =>
    show cc0_transform_1 (grid0.coords t) (3 : Fin 4) * 128 ≤ (i 3).val ∧ (i 3).val < cc0_transform_1 (grid0.coords t) (3 : Fin 4) * 128 + 128
    omega

/-- So the result array ends holding the masked array. -/
theorem final (hO : Ok m) (c : Dev nD) : (dats m hO 0 c).arrAt 1 (cfgM m hO).N = val m c :=
  (dats m hO 0 c).arrAt_eq_of_cover 1 (val m c) (flushed_eq m hO c) (cover m hO)

/-- THE KERNEL'S RUN with its result named: the masked array; the arguments unchanged. -/
theorem run (hO : Ok m) :
    θ_run defs (onTc (τ := τ) (main (F := Ideal))) ⟨m, fun _ => 0, ρ⟩ fun r => ∀ c : Dev nD,
      r.2.mem ((c : Thread nD τ).loc main_v0) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have H := run_main m ρ hO
  refine (θ_run defs _ _).mono (fun _ hq c => ?_) H
  exact ⟨((hq c).1 1).trans (final m hO c),
    ((hq c).1 0).trans (((dats m hO 0 c).arrAt_in 0 rfl _).trans ((A_eq m hO c 0).trans (V_main_arg0 m c))),
    ((hq c).2 main_arg1 (by decide : main_arg1 ∈ Pipeline.restRefs sig spec0)).trans (V_main_arg1 m c),
    ((hq c).2 main_arg2 (by decide : main_arg2 ∈ Pipeline.restRefs sig spec0)).trans (V_main_arg2 m c)⟩

end Cert.KernelIdeal.ArrayValue

end
-- ==== Proof.RefValue.lean ====
/-
  The reference's result, index by index, is the masked array of `Stripes.lean`.

  The reference builds, for sample `b`, stripe `s` and time step `t`, the bit "`t` lies in stripe `s`" on a
  [64, 2, 2048] grid (the time steps an iota, the begins and the begin-plus-width sums broadcast along time), ORs the two
  stripes' bits together (a reduce over the stripe axis from the zero bit), complements, converts the bit to 0.0 or 1.0
  and multiplies the input by it, broadcast over channels and lanes. Read at `(b, c, t, l)` that is
  `x[b, c, t, l] · keepVal`, the kept value of `(b, t)`.
-/
import proofs.«413042_j154618823374_3_alg».proof.Proof.Gen.ReferenceIdeal.Read
import proofs.«413042_j154618823374_3_alg».proof.Proof.Stripes
import Idealize.ShloMosaic.Lib.ValueIdx
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Stripes

/-- The stripe axis (axis 1) of the [64, 2, 2048] grid drops to [64, 2048]. -/
theorem red1 : S64x2x2048.Reduces [1] S64x2048 := by decide

/-- Over `(b, t)`, inserting stripe `s` on the dropped axis gives `(b, s, t)`. -/
theorem lift_bt (b : Fin 64) (t : Fin 2048) (s : Fin 2) :
    red1.lift (ix2 (n0 := 64) (n1 := 2048) b t) s = ix3 (n0 := 64) (n1 := 2) (n2 := 2048) b s t := by
  funext a
  apply Fin.ext
  match a with
  | ⟨0, _⟩ => rfl
  | ⟨1, _⟩ => rfl
  | ⟨2, _⟩ => rfl

/-- The OR over the stripe axis, from the zero bit, at `(b, t)`: the two stripes' bits ORed. -/
theorem or_reduce_apply (y : IVec S64x2x2048 1) (b : Fin 64) (t : Fin 2048) :
    Host.reduce IntOp.ori y (constantI S_ 1 0#1) reducesTo_S64x2x2048_S64x2048_d1 h_S_ (ix2 (n0 := 64) (n1 := 2048) b t)
      = y (ix3 (n0 := 64) (n1 := 2) (n2 := 2048) b 0 t) ||| y (ix3 (n0 := 64) (n1 := 2) (n2 := 2048) b 1 t) := by
  rw [Host.reduce_eq_fold_single IntOp.ori y _ reducesTo_S64x2x2048_S64x2048_d1 red1 h_S_]
  refine (fold_ori_two (fun s => y (red1.lift (ix2 (n0 := 64) (n1 := 2048) b t) s))).trans ?_
  rw [lift_bt, lift_bt]

/-- One stripe's bit at `(b, s, t)`: time step `t` against the stripe beginning at `bgns[b, s]` of width
    `distances[b, s]`. -/
theorem stripe_apply (x1 x2 : IVec S64x2 32) (b : Fin 64) (s : Fin 2) (t : Fin 2048) :
    val_main_v12 (F := Ideal) x1 x2 (ix3 (n0 := 64) (n1 := 2) (n2 := 2048) b s t)
      = inStripe (x2 (ix2 (n0 := 64) (n1 := 2) b s)) (x1 (ix2 (n0 := 64) (n1 := 2) b s)) (BitVec.ofNat 32 t.val) := by
  have e1 : idx_main_v1 (idx_main_v6 (ix3 (n0 := 64) (n1 := 2) (n2 := 2048) b s t)) = ix2 (n0 := 64) (n1 := 2) b s :=
    funext fun a => by match a with | ⟨0, _⟩ => rfl | ⟨1, _⟩ => rfl
  have e3 : idx_main_v3 (idx_main_v10 (ix3 (n0 := 64) (n1 := 2) (n2 := 2048) b s t)) = ix2 (n0 := 64) (n1 := 2) b s :=
    funext fun a => by match a with | ⟨0, _⟩ => rfl | ⟨1, _⟩ => rfl
  rw [val_main_v12_apply, val_main_v7_apply, val_main_v11_apply, val_main_v5_apply, val_main_v4_apply, val_main_v0_apply,
    val_main_v6_apply, val_main_v1_apply, val_main_v9_apply, val_main_v8_apply, val_main_v0_apply, val_main_v10_apply,
    val_main_v3_apply, val_main_v2_apply, e1, e3]
  rfl

/-- THE REFERENCE'S RESULT is the masked array of the input, the widths `x1` and the begins `x2`. -/
theorem ref_eq (x0 : FVec Ideal S64x8x2048x128 .f32) (x1 x2 : IVec S64x2 32) :
    val_main_v18 (F := Ideal) x0 x1 x2 = dropped x0 x1 x2 := by
  funext i
  obtain ⟨b, c, t, l, rfl⟩ : ∃ (b : Fin 64) (c : Fin 8) (t : Fin 2048) (l : Fin 128), i = ix4 b c t l :=
    ⟨i 0, i 1, i 2, i 3, eq_ix4 i⟩
  have hj : idx_main_v15 (idx_main_v17 (ix4 b c t l)) = ix2 (n0 := 64) (n1 := 2048) b t :=
    funext fun a => by match a with | ⟨0, _⟩ => rfl | ⟨1, _⟩ => rfl
  rw [val_main_v18_apply, val_main_v17_apply, val_main_v16_apply, val_main_v15_apply, val_main_v14_apply, hj]
  unfold val_main_v13 val_main_c
  rw [or_reduce_apply, stripe_apply, stripe_apply]
  rfl

end Cert.ReferenceIdeal.RefValue

end
-- ==== Proof.lean ====
/-
  Stripe dropping along time, a Pallas kernel against its jnp reference: equal over the extended reals.

  Both programs multiply the input `x[b, c, t, l]` by a keep value of `(b, t)`: 0 when time step `t` lies in one of sample
  `b`'s two stripes `[bgns, bgns + distances)` (signed compares, the sum wrapping at 32 bits), else 1. The reference ORs
  the stripes' bits, complements, and converts the bit unsigned; the kernel ANDs the complements, widens the bit by
  zeros to 32 bits and converts signed: one number (`Stripes.lean`). The kernel computes it tile by tile on a grid of
  (sample, time tile) points, each point's eight channel stores covering its block and the 128 blocks tiling the array
  (`KernelBlock.lean`, `KernelValue.lean`); the reference's twenty host operations read index by index give the same
  function (`RefValue.lean`). The product is the same operation of the same two factors on both sides, so no law of the
  extended reals is needed and the finiteness precondition is never opened.

  The kernel's index maps read neither table, so the pipeline's side condition on the tables' contents is `True`.
  The ideal pass rewrote nothing: the idealization claim is `True`.
-/
import proofs.«413042_j154618823374_3_alg».proof.Defs
import proofs.«413042_j154618823374_3_alg».proof.Proof.Gen.Kernel
import proofs.«413042_j154618823374_3_alg».proof.Proof.Gen.Kernel.Frame
import proofs.«413042_j154618823374_3_alg».proof.Proof.Gen.KernelIdeal
import proofs.«413042_j154618823374_3_alg».proof.Proof.Gen.KernelIdeal.Frame
import proofs.«413042_j154618823374_3_alg».proof.Proof.Gen.ReferenceIdeal
import proofs.«413042_j154618823374_3_alg».proof.Proof.Gen.ReferenceIdeal.Run
import proofs.«413042_j154618823374_3_alg».proof.Proof.Gen.ReferenceIdeal.Read
import proofs.«413042_j154618823374_3_alg».proof.Proof.Gen.Pre_finite_inputs
import proofs.«413042_j154618823374_3_alg».proof.Proof.KernelValue
import proofs.«413042_j154618823374_3_alg».proof.Proof.RefValue
import Idealize.ShloMosaic.Adequacy
import Idealize.ShloMosaic.Init

noncomputable section

namespace Cert.Proof

open Idealize.ShloMosaic Idealize.SL.Sem

/-- The word-level kernel runs and keeps its arguments: no index map reads a table, so the side condition is trivial. -/
theorem frame_k : Cert.frame_Kernel := fun m ρ _ => Cert.Kernel.Gen.frame m ρ trivial

/-- The same for the idealized kernel. -/
theorem frame_ki : Cert.frame_KernelIdeal := fun m ρ _ => Cert.KernelIdeal.Gen.frame m ρ trivial

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the masked array of those arguments. -/
theorem algebraic : Cert.algebraic_KernelIdeal_ReferenceIdeal := by
  intro m ρ m' ρ' _ hagree
  refine ⟨fun c => Cert.KernelIdeal.ArrayValue.val m c, Cert.KernelIdeal.ArrayValue.run m ρ trivial, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
